-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : IVec S4096x4096 32) (main_arg2 : FVec F S4096x64 .f32) (main_arg3 : FVec F S16x4096 .f32) (main_arg4 : FVec F S4096x16 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg5 main_v13 main_v16
-- ==== Kernel.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S1x4096 : Shape := ⟨2, ![1, 4096]⟩
abbrev S1024x512 : Shape := ⟨2, ![1024, 512]⟩
abbrev S1024x64 : Shape := ⟨2, ![1024, 64]⟩
abbrev S16x512 : Shape := ⟨2, ![16, 512]⟩
abbrev S1024x16 : Shape := ⟨2, ![1024, 16]⟩
abbrev S1x1024 : Shape := ⟨2, ![1, 1024]⟩
abbrev S1024x1024 : Shape := ⟨2, ![1024, 1024]⟩
abbrev S1024x8 : Shape := ⟨2, ![1024, 8]⟩
abbrev S1024x8x1 : Shape := ⟨3, ![1024, 8, 1]⟩
abbrev S1024x8x64 : Shape := ⟨3, ![1024, 8, 64]⟩

abbrev nBuf : Space → Nat
  | .hbm => 10
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1024x64, .f32⟩
  | .local _ .vmem, ⟨5, _⟩ => ⟨S1024x64, .f32⟩
  | .local _ .vmem, ⟨6, _⟩ => ⟨S16x512, .f32⟩
  | .local _ .vmem, ⟨7, _⟩ => ⟨S16x512, .f32⟩
  | .local _ .vmem, ⟨8, _⟩ => ⟨S1024x16, .f32⟩
  | .local _ .vmem, ⟨9, _⟩ => ⟨S1024x16, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 2 → Nat :=
  let c0 : Index := 0#32
  let arg2 : BitVec 32 := BitVec.ofNat 32 (i 2).val
  let c8_i32 : BitVec 32 := 8#32
  let v3 : BitVec 32 := Scalar.muli arg2 c8_i32
  let v4 : Index := Scalar.indexCast v3
  ![0, v4.toNat]
def k0_cond2 (i : grid0.Coords) : BitVec 1 :=
  let arg2 : BitVec 32 := BitVec.ofNat 32 (i 2).val
  let c7_i32 : BitVec 32 := 7#32
  let v28 : BitVec 1 := Scalar.cmpi .eq arg2 c7_i32
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S1024x8 : 0 < S1024x8.numel
  shapeCasts_S1024x8_S1024x8x1 : S1024x8.ShapeCasts S1024x8x1
  broadcasts_S1024x8x1_S1024x8x64 : S1024x8x1.Broadcasts S1024x8x64
  shapeCasts_S1024x8x64_S1024x512 : S1024x8x64.ShapeCasts S1024x512
  inb_S1024x512_S1024x512_0_0 : ∀ a, (![0, 0] : Fin 2 → Nat) a + S1024x512.size a ≤ S1024x512.size a
  h_S1024x512 : 0 < S1024x512.numel
  inb_S16x512_S16x512_0_0 : ∀ a, (![0, 0] : Fin 2 → Nat) a + S16x512.size a ≤ S16x512.size a
  h_S16x512 : 0 < S16x512.numel
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x16_S16x512_S1024x512_1_0_0_1_n_n_wf : DotDims.WF S1024x16 S16x512 S1024x512 [1] [0] [0] [1] [] []
  dot_S1024x512_S1024x512_S1024x1024_1_1_0_0_n_n_wf : DotDims.WF S1024x512 S1024x512 S1024x1024 [1] [1] [0] [0] [] []
  hrank0 : 0 < grid0.rank
  k0_off1_inb : ∀ i : grid0.Coords, ∀ a, (k0_off1 i) a + S1024x8.size a ≤ S1024x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S4096x64.size a
  hwx0_2 : ∀ i : grid0.Coords, EltTy.bits .f32 = 32 ∨ (Rect.block (s := S4096x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x4096.size a
  hwx0_3 : ∀ i : grid0.Coords, EltTy.bits .f32 = 32 ∨ (Rect.block (s := S16x4096) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S4096x16.size a
  hwx0_4 : ∀ i : grid0.Coords, EltTy.bits .f32 = 32 ∨ (Rect.block (s := S4096x16) S1024x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x4096.size a
  hwx0_6 : ∀ i : grid0.Coords, EltTy.bits .f32 = 32 ∨ (Rect.block (s := S8192x4096) S1024x1024.size (cc0_transform_6 i) (hinb0_6 i)).WholeWords (EltTy.packing .f32)

variable [Facts₀]

def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S4096 : Shape := ⟨1, ![4096]⟩
abbrev S4096x64x64 : Shape := ⟨3, ![4096, 64, 64]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S4096x64x64, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | .hbm, ⟨14, _⟩ => ⟨S4x2048x16, .f32⟩
  | .hbm, ⟨15, _⟩ => ⟨S4x2048x4096, .f32⟩
  | .hbm, ⟨16, _⟩ => ⟨S_, .f32⟩
  | .hbm, ⟨17, _⟩ => ⟨S4x2048x4096, .f32⟩
  | .hbm, ⟨18, _⟩ => ⟨S4x2048x4096, .f32⟩
  | .hbm, ⟨19, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S4096x64_S4096x64x64_0_1 : S4096x64.BroadcastsInDim S4096x64x64 (![0, 1] : Fin 2 → Fin S4096x64x64.rank)
  shapeCasts_S4096x64x64_S4096x4096 : S4096x64x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.KernelPieces.lean ====
/-
  What one run of the kernel body leaves behind, as values of what it was given: the running-sum scratch after the
  body, and (at the last step of a row of points) the output block. The three control cases differ only in where the
  running sum comes from (a fresh zero at the first step, the previous step's sum afterwards) and in whether the output
  block is stored.

  Of the 64 absmax columns the body holds, a step reads the eight that belong to its chunk of features: columns
  `8 · kk … 8 · kk + 7` at step `kk`.
-/
import proofs.«170527_j40604620816621_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The eight absmax columns a step reads out of the 64 it holds. -/
abbrev scaleCols (i : grid0.Coords) (x2 : Vec F S1024x64 .f32) : Vec F S1024x8 .f32 :=
  View.ld x2 (Rect.unit (k0_off1 i) S1024x8.size (k0_off1_inb i))

/-- A middle step: the scratch ends at the step's sum over what the step before left. -/
theorem scratch_mid (c : Dev nD) (i : grid0.Coords) (a3 : Memref sig .tc .vmem S1024x512 .f32) (h3 : a3.IsWhole) (a4 : Memref sig .tc .vmem S1024x512 .i32) (h4 : a4.IsWhole) (a5 : Memref sig .tc .vmem S1024x64 .f32) (h5 : a5.IsWhole) (a6 : Memref sig .tc .vmem S16x512 .f32) (h6 : a6.IsWhole) (a7 : Memref sig .tc .vmem S1024x16 .f32) (h7 : a7.IsWhole) (a8 : Memref sig .tc .vmem S1x1024 .f32) (h8 : a8.IsWhole) (a9 : Memref sig .tc .vmem S1024x1024 .f32) (h9 : a9.IsWhole) (a10 : Memref sig .tc .vmem S1024x1024 .f32) (h10 : a10.IsWhole) (hc0 : ¬cond0_0 i) (hc1 : ¬cond0_1 i) (x0 : Vec F S1024x512 .f32) (x1 : Vec F S1024x512 .i32) (x2 : Vec F S1024x64 .f32) (x3 : Vec F S16x512 .f32) (x4 : Vec F S1024x16 .f32) (x5 : Vec F S1x1024 .f32) (xs0 : Vec F S1024x1024 .f32) :
    sout0_B_0 c i a3 h3 a4 h4 a5 h5 a6 h6 a7 h7 a8 h8 a9 h9 a10 h10 hc0 hc1 x0 x1 x2 x3 x4 x5 xs0 = k0_pay2 (scaleCols i x2) x1 x3 x4 x0 xs0 := by
  unfold sout0_B_0
  rw [View.read_writes_eq_canon _ _ _ (scover0_B_0 c i a3 h3 a4 h4 a5 h5 a6 h6 a7 h7 a8 h8 a9 h9 a10 h10 hc0 hc1 x0 x1 x2 x3 x4 x5 xs0)]
  unfold kernelRun0_B
  dsimp only
  sl_unfold_words
  rw [View.canon_unit_zero hz]
  simp only [View.readAt_eq_ld, h3.read_unread, h4.read_unread, h5.read_unread, h6.read_unread, h7.read_unread, h8.read_unread, h10.read_unread,
    View.ld_unit_zero (S := S1024x512) hz, View.ld_unit_zero (S := S16x512) hz, View.ld_unit_zero (S := S1024x16) hz,
    View.ld_unit_zero (S := S1x1024) hz, View.ld_unit_zero (S := S1024x1024) hz]
  rfl

/-- The last step of a row of points: the scratch likewise, -/
theorem scratch_last (c : Dev nD) (i : grid0.Coords) (a3 : Memref sig .tc .vmem S1024x512 .f32) (h3 : a3.IsWhole) (a4 : Memref sig .tc .vmem S1024x512 .i32) (h4 : a4.IsWhole) (a5 : Memref sig .tc .vmem S1024x64 .f32) (h5 : a5.IsWhole) (a6 : Memref sig .tc .vmem S16x512 .f32) (h6 : a6.IsWhole) (a7 : Memref sig .tc .vmem S1024x16 .f32) (h7 : a7.IsWhole) (a8 : Memref sig .tc .vmem S1x1024 .f32) (h8 : a8.IsWhole) (a9 : Memref sig .tc .vmem S1024x1024 .f32) (h9 : a9.IsWhole) (a10 : Memref sig .tc .vmem S1024x1024 .f32) (h10 : a10.IsWhole) (hc0 : ¬cond0_0 i) (hc1 : cond0_1 i) (x0 : Vec F S1024x512 .f32) (x1 : Vec F S1024x512 .i32) (x2 : Vec F S1024x64 .f32) (x3 : Vec F S16x512 .f32) (x4 : Vec F S1024x16 .f32) (x5 : Vec F S1x1024 .f32) (xs0 : Vec F S1024x1024 .f32) :
    sout0_C_0 c i a3 h3 a4 h4 a5 h5 a6 h6 a7 h7 a8 h8 a9 h9 a10 h10 hc0 hc1 x0 x1 x2 x3 x4 x5 xs0 = k0_pay2 (scaleCols i x2) x1 x3 x4 x0 xs0 := by
  unfold sout0_C_0
  rw [View.read_writes_eq_canon _ _ _ (scover0_C_0 c i a3 h3 a4 h4 a5 h5 a6 h6 a7 h7 a8 h8 a9 h9 a10 h10 hc0 hc1 x0 x1 x2 x3 x4 x5 xs0)]
  unfold kernelRun0_C
  dsimp only
  sl_unfold_words
  rw [View.canon_unit_zero hz]
  simp only [View.readAt_eq_ld, h3.read_unread, h4.read_unread, h5.read_unread, h6.read_unread, h7.read_unread, h8.read_unread, h10.read_unread,
    View.ld_unit_zero (S := S1024x512) hz, View.ld_unit_zero (S := S16x512) hz, View.ld_unit_zero (S := S1024x16) hz,
    View.ld_unit_zero (S := S1x1024) hz, View.ld_unit_zero (S := S1024x1024) hz]
  rfl

/-- and the output block is that sum plus the bias row. -/
theorem out_last (c : Dev nD) (i : grid0.Coords) (a3 : Memref sig .tc .vmem S1024x512 .f32) (h3 : a3.IsWhole) (a4 : Memref sig .tc .vmem S1024x512 .i32) (h4 : a4.IsWhole) (a5 : Memref sig .tc .vmem S1024x64 .f32) (h5 : a5.IsWhole) (a6 : Memref sig .tc .vmem S16x512 .f32) (h6 : a6.IsWhole) (a7 : Memref sig .tc .vmem S1024x16 .f32) (h7 : a7.IsWhole) (a8 : Memref sig .tc .vmem S1x1024 .f32) (h8 : a8.IsWhole) (a9 : Memref sig .tc .vmem S1024x1024 .f32) (h9 : a9.IsWhole) (a10 : Memref sig .tc .vmem S1024x1024 .f32) (h10 : a10.IsWhole) (hc0 : ¬cond0_0 i) (hc1 : cond0_1 i) (x0 : Vec F S1024x512 .f32) (x1 : Vec F S1024x512 .i32) (x2 : Vec F S1024x64 .f32) (x3 : Vec F S16x512 .f32) (x4 : Vec F S1024x16 .f32) (x5 : Vec F S1x1024 .f32) (xs0 : Vec F S1024x1024 .f32) :
    out0_C_6 c i a3 h3 a4 h4 a5 h5 a6 h6 a7 h7 a8 h8 a9 h9 a10 h10 hc0 hc1 x0 x1 x2 x3 x4 x5 xs0 = k0_pay3 (k0_pay2 (scaleCols i x2) x1 x3 x4 x0 xs0) x5 := by
  unfold out0_C_6
  rw [View.read_writes_eq_canon _ _ _ (cover0_C_6 c i a3 h3 a4 h4 a5 h5 a6 h6 a7 h7 a8 h8 a9 h9 a10 h10 hc0 hc1 x0 x1 x2 x3 x4 x5 xs0)]
  unfold kernelRun0_C
  dsimp only
  sl_unfold_words
  rw [View.canon_unit_zero hz]
  simp only [View.readAt_eq_ld, h3.read_unread, h4.read_unread, h5.read_unread, h6.read_unread, h7.read_unread, h8.read_unread, h10.read_unread,
    View.ld_unit_zero (S := S1024x512) hz, View.ld_unit_zero (S := S16x512) hz, View.ld_unit_zero (S := S1024x16) hz,
    View.ld_unit_zero (S := S1x1024) hz, View.ld_unit_zero (S := S1024x1024) hz, View.readCov_unit_zero (S := S1024x1024) _ hz]
  rfl

/-- The first step of a row of points: the scratch is reset to zero, read back, and ends at the step's sum over zero. -/
theorem scratch_first (c : Dev nD) (i : grid0.Coords) (a3 : Memref sig .tc .vmem S1024x512 .f32) (h3 : a3.IsWhole) (a4 : Memref sig .tc .vmem S1024x512 .i32) (h4 : a4.IsWhole) (a5 : Memref sig .tc .vmem S1024x64 .f32) (h5 : a5.IsWhole) (a6 : Memref sig .tc .vmem S16x512 .f32) (h6 : a6.IsWhole) (a7 : Memref sig .tc .vmem S1024x16 .f32) (h7 : a7.IsWhole) (a8 : Memref sig .tc .vmem S1x1024 .f32) (h8 : a8.IsWhole) (a9 : Memref sig .tc .vmem S1024x1024 .f32) (h9 : a9.IsWhole) (a10 : Memref sig .tc .vmem S1024x1024 .f32) (h10 : a10.IsWhole) (hc0 : cond0_0 i) (hc1 : ¬cond0_1 i) (x0 : Vec F S1024x512 .f32) (x1 : Vec F S1024x512 .i32) (x2 : Vec F S1024x64 .f32) (x3 : Vec F S16x512 .f32) (x4 : Vec F S1024x16 .f32) (x5 : Vec F S1x1024 .f32) :
    sout0_A_0 c i a3 h3 a4 h4 a5 h5 a6 h6 a7 h7 a8 h8 a9 h9 a10 h10 hc0 hc1 x0 x1 x2 x3 x4 x5 = k0_pay2 (scaleCols i x2) x1 x3 x4 x0 (k0_pay1 (F := F)) := by
  unfold sout0_A_0
  rw [View.read_writes_eq_canon _ _ _ (scover0_A_0 c i a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S1024x1024) hz]
  simp only [View.readAt_eq_ld, h3.read_unread, h4.read_unread, h5.read_unread, h6.read_unread, h7.read_unread, h8.read_unread, h10.read_unread,
    View.ld_unit_zero (S := S1024x512) hz, View.ld_unit_zero (S := S16x512) hz, View.ld_unit_zero (S := S1024x16) hz,
    View.ld_unit_zero (S := S1x1024) hz, View.ld_unit_zero (S := S1024x1024) hz, View.readCov_unit_zero (S := S1024x1024) _ hz]
  rfl

end Cert.KernelIdeal.Pieces

end
-- ==== Proof.KernelPayload.lean ====
/-
  The kernel body's arithmetic, read at one index, at the ideal values.

  At a grid point the body holds a 1024 × 512 block of activations `xb`, a 1024 × 512 block of integer weights `qb`, the
  eight absmax columns `sc` (1024 × 8) that scale those 512 features (64 features to a column), the low-rank factors' blocks
  `ab` (16 × 512) and `bb` (1024 × 16), and the running sum `acc` (1024 × 1024). It adds to `acc` at (p, n) the inner
  product over the 512 features q of `xb (p, q)` with the effective weight
  `qb (n, q) · sc (n, q / 64) + 2 · ∑ r, bb (n, r) · ab (r, q)`.
  The last step of a row of points adds the bias row to the running sum.
-/
import proofs.«170527_j40604620816621_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The absmax column of feature `q` inside a chunk: `q / 64`. -/
def scaleCol (q : Fin 512) : Fin 8 := ⟨q.val / 64, by have := q.isLt; omega⟩

/-- `jnp.repeat(scale, 64, axis=1)` as the body lowers it (add a unit axis, broadcast it to 64, merge the last two axes):
    feature `q` of row `n` reads absmax column `q / 64` of that row. -/
theorem repeat_apply (sc : Vec Ideal S1024x8 .f32) (n : Fin 1024) (q : Fin 512) :
    shapeCast S1024x512 (broadcastTo S1024x8x64 (shapeCast S1024x8x1 sc shapeCasts_S1024x8_S1024x8x1) broadcasts_S1024x8x1_S1024x8x64)
        shapeCasts_S1024x8x64_S1024x512 (ix2 n q)
      = sc (ix2 n (scaleCol q)) := by
  have hn := n.isLt
  have hq := q.isLt
  refine (shapeCast_apply _ shapeCasts_S1024x8x64_S1024x512 (ix2 n q)
    (ix3 n (scaleCol q) (⟨q.val % 64, Nat.mod_lt _ (by norm_num)⟩ : Fin 64)) ?_).trans ?_
  · rewrite [Shape.rowMajor_val_three, Shape.rowMajor_val_two]
    show (n.val * 8 + q.val / 64) * 64 + q.val % 64 = n.val * 512 + q.val
    omega
  refine (broadcastTo_apply _ broadcasts_S1024x8x1_S1024x8x64 _ (ix3 n (scaleCol q) (0 : Fin 1)) fun a => ?_).trans ?_
  · match a with
    | ⟨0, _⟩ => show n.val = if (1024 : Nat) = 1 then 0 else n.val; rw [if_neg (by decide)]
    | ⟨1, _⟩ => show q.val / 64 = if (8 : Nat) = 1 then 0 else q.val / 64; rw [if_neg (by decide)]
    | ⟨2, _⟩ => show 0 = if (1 : Nat) = 1 then 0 else q.val % 64; rw [if_pos rfl]
  refine shapeCast_apply sc shapeCasts_S1024x8_S1024x8x1 _ (ix2 n (scaleCol q)) ?_
  rewrite [Shape.rowMajor_val_three, Shape.rowMajor_val_two]
  show n.val * 8 + q.val / 64 = (n.val * 8 + q.val / 64) * 1 + 0
  omega

/-! ### The low-rank product `bb · ab` (contract the rank axis) -/

theorem lhs_lora_0 (i : S1024x512.Idx) (k : dot_S1024x16_S16x512_S1024x512_1_0_0_1_n_n.contr.Idx) :
    (dot_S1024x16_S16x512_S1024x512_1_0_0_1_n_n.lhsIdx i k 0).val = (i 0).val := by
  unfold DotDims.lhsIdx
  rw [dif_neg (show ¬(0 : Fin S1024x16.rank) ∈ dot_S1024x16_S16x512_S1024x512_1_0_0_1_n_n.lhsBatch by decide), dif_pos (show (0 : Fin S1024x16.rank) ∈ dot_S1024x16_S16x512_S1024x512_1_0_0_1_n_n.lhsNonContracting by decide)]
  rfl
theorem lhs_lora_1 (i : S1024x512.Idx) (k : dot_S1024x16_S16x512_S1024x512_1_0_0_1_n_n.contr.Idx) :
    (dot_S1024x16_S16x512_S1024x512_1_0_0_1_n_n.lhsIdx i k 1).val = (k ⟨0, by decide⟩).val :=
  dot_S1024x16_S16x512_S1024x512_1_0_0_1_n_n.lhsIdx_val_of_single rfl i k
theorem rhs_lora_0 (i : S1024x512.Idx) (k : dot_S1024x16_S16x512_S1024x512_1_0_0_1_n_n.contr.Idx) :
    (dot_S1024x16_S16x512_S1024x512_1_0_0_1_n_n.rhsIdx i k 0).val = (k ⟨0, by decide⟩).val :=
  dot_S1024x16_S16x512_S1024x512_1_0_0_1_n_n.rhsIdx_val_of_single rfl i k
theorem rhs_lora_1 (i : S1024x512.Idx) (k : dot_S1024x16_S16x512_S1024x512_1_0_0_1_n_n.contr.Idx) :
    (dot_S1024x16_S16x512_S1024x512_1_0_0_1_n_n.rhsIdx i k 1).val = (i 1).val := by
  unfold DotDims.rhsIdx
  rw [dif_neg (show ¬(1 : Fin S16x512.rank) ∈ dot_S1024x16_S16x512_S1024x512_1_0_0_1_n_n.rhsBatch by decide), dif_pos (show (1 : Fin S16x512.rank) ∈ dot_S1024x16_S16x512_S1024x512_1_0_0_1_n_n.rhsNonContracting by decide)]
  rfl

/-- The correction `bb · ab` at (n, q): the sum over the sixteen ranks. -/
theorem lora_apply (bb : FVec Ideal S1024x16 .f32) (ab : FVec Ideal S16x512 .f32) (n : Fin 1024) (q : Fin 512) :
    matmul (F := Ideal) dot_S1024x16_S16x512_S1024x512_1_0_0_1_n_n none bb ab (constant (F := Ideal) S1024x512 .f32 0x00000000#32) (ix2 n q)
      = ∑ r : Fin 16, bb (ix2 n r) * ab (ix2 r q) := by
  simp only [matmul]
  rw [Ideal.matmul_constant_zero_apply, ← Equiv.sum_comp (contrEquiv1 dot_S1024x16_S16x512_S1024x512_1_0_0_1_n_n 16 rfl rfl).symm]
  refine Finset.sum_congr rfl fun r _ => ?_
  have hk := contrEquiv1_symm_val dot_S1024x16_S16x512_S1024x512_1_0_0_1_n_n 16 rfl rfl r
  have el : dot_S1024x16_S16x512_S1024x512_1_0_0_1_n_n.lhsIdx (ix2 n q) ((contrEquiv1 dot_S1024x16_S16x512_S1024x512_1_0_0_1_n_n 16 rfl rfl).symm r) = ix2 n r := funext fun a => Fin.ext (by
    match a with
    | ⟨0, _⟩ => exact lhs_lora_0 _ _
    | ⟨1, _⟩ => exact (lhs_lora_1 _ _).trans hk)
  have er : dot_S1024x16_S16x512_S1024x512_1_0_0_1_n_n.rhsIdx (ix2 n q) ((contrEquiv1 dot_S1024x16_S16x512_S1024x512_1_0_0_1_n_n 16 rfl rfl).symm r) = ix2 r q := funext fun a => Fin.ext (by
    match a with
    | ⟨0, _⟩ => exact (rhs_lora_0 _ _).trans hk
    | ⟨1, _⟩ => exact rhs_lora_1 _ _)
  rw [el, er]

/-! ### The main product `xb · w_effᵀ` (contract the feature axis of both) -/

theorem lhs_main_0 (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_main_1 (i : S1024x1024.Idx) (k : dot_S1024x512_S1024x512_S1024x1024_1_1_0_0_n_n.contr.Idx) :
    (dot_S1024x512_S1024x512_S1024x1024_1_1_0_0_n_n.lhsIdx i k 1).val = (k ⟨0, by decide⟩).val :=
  dot_S1024x512_S1024x512_S1024x1024_1_1_0_0_n_n.lhsIdx_val_of_single rfl i k
theorem rhs_main_0 (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_main_1 (i : S1024x1024.Idx) (k : dot_S1024x512_S1024x512_S1024x1024_1_1_0_0_n_n.contr.Idx) :
    (dot_S1024x512_S1024x512_S1024x1024_1_1_0_0_n_n.rhsIdx i k 1).val = (k ⟨0, by decide⟩).val :=
  dot_S1024x512_S1024x512_S1024x1024_1_1_0_0_n_n.rhsIdx_val_of_single rfl i k

/-- The product at (p, n): the sum over the chunk's 512 features of row p of the left against row n of the right. -/
theorem main_apply {φ₁ φ₂ : FTy} (l : FVec Ideal S1024x512 φ₁) (r : FVec Ideal S1024x512 φ₂) (p n : Fin 1024) :
    matmul (F := Ideal) dot_S1024x512_S1024x512_S1024x1024_1_1_0_0_n_n none l r (constant (F := Ideal) S1024x1024 .f32 0x00000000#32) (ix2 p n)
      = ∑ q : Fin 512, l (ix2 p q) * r (ix2 n q) := by
  simp only [matmul]
  rw [Ideal.matmul_constant_zero_apply, ← Equiv.sum_comp (contrEquiv1 dot_S1024x512_S1024x512_S1024x1024_1_1_0_0_n_n 512 rfl rfl).symm]
  refine Finset.sum_congr rfl fun q _ => ?_
  have hk := contrEquiv1_symm_val dot_S1024x512_S1024x512_S1024x1024_1_1_0_0_n_n 512 rfl rfl q
  have el : dot_S1024x512_S1024x512_S1024x1024_1_1_0_0_n_n.lhsIdx (ix2 p n) ((contrEquiv1 dot_S1024x512_S1024x512_S1024x1024_1_1_0_0_n_n 512 rfl rfl).symm q) = ix2 p q := funext fun a => Fin.ext (by
    match a with
    | ⟨0, _⟩ => exact lhs_main_0 _ _
    | ⟨1, _⟩ => exact (lhs_main_1 _ _).trans hk)
  have er : dot_S1024x512_S1024x512_S1024x1024_1_1_0_0_n_n.rhsIdx (ix2 p n) ((contrEquiv1 dot_S1024x512_S1024x512_S1024x1024_1_1_0_0_n_n 512 rfl rfl).symm q) = ix2 n q := funext fun a => Fin.ext (by
    match a with
    | ⟨0, _⟩ => exact rhs_main_0 _ _
    | ⟨1, _⟩ => exact (rhs_main_1 _ _).trans hk)
  rw [el, er]

/-! ### The three stored values -/

/-- The reset stores zero everywhere. -/
theorem reset_apply (j : S1024x1024.Idx) : k0_pay1 (F := Ideal) j = Ideal.ofBits .f32 0x00000000#32 := rfl

/-- The accumulation step at (p, n). -/
theorem step_apply (sc : Vec Ideal S1024x8 .f32) (qb : Vec Ideal S1024x512 .i32) (ab : Vec Ideal S16x512 .f32) (bb : Vec Ideal S1024x16 .f32)
    (xb : Vec Ideal S1024x512 .f32) (acc : Vec Ideal S1024x1024 .f32) (p n : Fin 1024) :
    k0_pay2 (F := Ideal) sc qb ab bb xb acc (ix2 p n)
      = acc (ix2 p n) + ∑ q : Fin 512, xb (ix2 p q) *
          (FloatOps.sitofp (F := Ideal) .f32 (qb (ix2 n q)) * sc (ix2 n (scaleCol q))
            + Ideal.ofBits .f32 0x40000000#32 * ∑ r : Fin 16, bb (ix2 n r) * ab (ix2 r q)) := by
  unfold k0_pay2
  simp only [shapeCast_self]
  show acc (ix2 p n) + matmul (F := Ideal) dot_S1024x512_S1024x512_S1024x1024_1_1_0_0_n_n none _ _ (constant (F := Ideal) S1024x1024 .f32 0x00000000#32) (ix2 p n) = _
  rw [main_apply]
  refine congrArg (acc (ix2 p n) + ·) (Finset.sum_congr rfl fun q _ => ?_)
  show xb (ix2 p q) * (FloatOps.sitofp (F := Ideal) .f32 (qb (ix2 n q)) * _ + Ideal.ofBits .f32 0x40000000#32 * _) = _
  rw [repeat_apply, lora_apply]

/-- The final store at (p, n): the running sum plus the bias row's entry n. -/
theorem finish_apply (acc : Vec Ideal S1024x1024 .f32) (bias : Vec Ideal S1x1024 .f32) (p n : Fin 1024) :
    k0_pay3 (F := Ideal) acc bias (ix2 p n) = acc (ix2 p n) + bias (ix2 (0 : Fin 1) n) := by
  unfold k0_pay3
  simp only [shapeCast_self]
  show acc (ix2 p n) + broadcastTo S1024x1024 bias broadcasts_S1x1024_S1024x1024 (ix2 p n) = _
  rw [broadcastTo_1b_ab_apply]

end Cert.KernelIdeal.Payload

end
-- ==== Proof.LoraAlgebra.lean ====
/-
  The arithmetic that joins the two programs, for ONE output entry: one row `x` of the activations (4096 reals), one row `w` of
  the dequantized weight, the low-rank factors `a` (16 × 4096) and one row `b` of the other factor (16 reals), a bias and the
  scaling constant.

  The kernel walks the 4096 input features in eight chunks of 512 and, chunk by chunk, adds to a running sum the inner
  product of the chunk of `x` with the chunk of the EFFECTIVE weight `w + two · (b · a)`; the bias is added at the end.
  The reference forms the base product `x · w`, adds the bias, and adds `two` times the low-rank path `(x · aᵀ) · b`.
  Over the reals these agree: the effective-weight product splits by distributivity, the double sum over (feature, rank)
  is exchanged, and eight chunks of 512 consecutive features are all 4096 features. Distributivity fails at infinities,
  so the statement is about extended reals that ARE reals.
-/
import Mathlib.Data.EReal.Basic
import Mathlib.Algebra.BigOperators.Fin
import Mathlib.Algebra.BigOperators.Ring.Finset
import Mathlib.Logic.Equiv.Fin.Basic
import Mathlib.Tactic.Ring
import Mathlib.Tactic.Linarith

noncomputable section

namespace Cert.LoraAlgebra

open Finset

/-- Feature `512 · kk + q`: position `q` of chunk `kk`. -/
def chunkCol (kk : Fin 8) (q : Fin 512) : Fin 4096 := ⟨512 * kk.val + q.val, by have := kk.isLt; have := q.isLt; omega⟩

/-- What one chunk adds to the running sum: the chunk of `x` against the chunk of the effective weight. -/
def contrib (x w : Fin 4096 → EReal) (a : Fin 16 → Fin 4096 → EReal) (b : Fin 16 → EReal) (two : EReal) (kk : Fin 8) : EReal :=
  ∑ q : Fin 512, x (chunkCol kk q) * (w (chunkCol kk q) + two * ∑ r : Fin 16, b r * a r (chunkCol kk q))

/-- The running sum after the first `K` chunks. -/
def acc (x w : Fin 4096 → EReal) (a : Fin 16 → Fin 4096 → EReal) (b : Fin 16 → EReal) (two : EReal) (K : ℕ) (hK : K ≤ 8) : EReal :=
  ∑ kk : Fin K, contrib x w a b two (Fin.castLE hK kk)

theorem acc_zero (x w : Fin 4096 → EReal) (a : Fin 16 → Fin 4096 → EReal) (b : Fin 16 → EReal) (two : EReal) (h : 0 ≤ 8) :
    acc x w a b two 0 h = 0 := by
  unfold acc; exact Fin.sum_univ_zero _

theorem acc_succ (x w : Fin 4096 → EReal) (a : Fin 16 → Fin 4096 → EReal) (b : Fin 16 → EReal) (two : EReal) (K : ℕ) (h : K + 1 ≤ 8) :
    acc x w a b two (K + 1) h = acc x w a b two K (Nat.le_of_succ_le h) + contrib x w a b two ⟨K, h⟩ := by
  unfold acc; rw [Fin.sum_univ_castSucc]; rfl

theorem acc_congr (x w : Fin 4096 → EReal) (a : Fin 16 → Fin 4096 → EReal) (b : Fin 16 → EReal) (two : EReal) {K K' : ℕ} (e : K = K')
    (h : K ≤ 8) (h' : K' ≤ 8) : acc x w a b two K h = acc x w a b two K' h' := by
  subst e; rfl

/-- One more chunk: the running sum after `K` chunks plus chunk `K`'s contribution is the running sum after `K + 1`. -/
theorem acc_add_contrib (x w : Fin 4096 → EReal) (a : Fin 16 → Fin 4096 → EReal) (b : Fin 16 → EReal) (two : EReal) (K K' : ℕ)
    (hK : K ≤ 8) (hK' : K' ≤ 8) (kk : Fin 8) (e1 : kk.val = K) (e2 : K' = K + 1) :
    acc x w a b two K hK + contrib x w a b two kk = acc x w a b two K' hK' := by
  subst e2
  obtain rfl : kk = ⟨K, hK'⟩ := Fin.ext e1
  exact (acc_succ x w a b two K hK').symm

/-- The reference's entry: base product plus bias, plus `two` times the low-rank path. -/
def refEntry (x w : Fin 4096 → EReal) (a : Fin 16 → Fin 4096 → EReal) (b : Fin 16 → EReal) (bias two : EReal) : EReal :=
  (∑ i : Fin 4096, x i * w i + bias) + (∑ r : Fin 16, (∑ i : Fin 4096, x i * a r i) * b r) * two

/-- A finite sum of reals, coerced, is the sum of the coerced terms. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Eight chunks of 512 consecutive features are all 4096 features. -/
def chunkEquiv : Fin 8 × Fin 512 ≃ Fin 4096 where
  toFun p := chunkCol p.1 p.2
  invFun i := (⟨i.val / 512, by have := i.isLt; omega⟩, ⟨i.val % 512, Nat.mod_lt _ (by norm_num)⟩)
  left_inv p := by
    rcases p with ⟨kk, q⟩
    have hq := q.isLt
    refine Prod.ext (Fin.ext ?_) (Fin.ext ?_)
    · show (512 * kk.val + q.val) / 512 = kk.val; omega
    · show (512 * kk.val + q.val) % 512 = q.val; omega
  right_inv i := by
    apply Fin.ext
    show 512 * (i.val / 512) + i.val % 512 = i.val
    omega

theorem sum_chunks {M : Type*} [AddCommMonoid M] (f : Fin 4096 → M) :
    ∑ kk : Fin 8, ∑ q : Fin 512, f (chunkCol kk q) = ∑ i : Fin 4096, f i := by
  rw [← Finset.sum_product', Finset.univ_product_univ]
  exact Equiv.sum_comp chunkEquiv f

/-- Over the reals: the chunked effective-weight sum plus the bias is the reference's entry. -/
theorem real_identity (x w : Fin 4096 → ℝ) (a : Fin 16 → Fin 4096 → ℝ) (b : Fin 16 → ℝ) (bias two : ℝ) :
    (∑ i : Fin 4096, x i * (w i + two * ∑ r : Fin 16, b r * a r i)) + bias
      = (∑ i : Fin 4096, x i * w i + bias) + (∑ r : Fin 16, (∑ i : Fin 4096, x i * a r i) * b r) * two := by
  have h1 : ∀ i : Fin 4096, x i * (w i + two * ∑ r : Fin 16, b r * a r i)
      = x i * w i + two * ∑ r : Fin 16, x i * a r i * b r := by
    intro i
    rw [mul_add, Finset.mul_sum, Finset.mul_sum, Finset.mul_sum]
    congr 1
    refine Finset.sum_congr rfl fun r _ => ?_
    ring
  rw [Finset.sum_congr rfl fun i _ => h1 i, Finset.sum_add_distrib, ← Finset.mul_sum, Finset.sum_comm]
  have h2 : ∀ r : Fin 16, ∑ i : Fin 4096, x i * a r i * b r = (∑ i : Fin 4096, x i * a r i) * b r := fun r => by
    rw [Finset.sum_mul]
  rw [Finset.sum_congr rfl fun r _ => h2 r]
  ring

/-- The kernel's entry — the running sum after all eight chunks, from zero, plus the bias — is the reference's entry
    when every value involved is a real. -/
theorem kernel_eq_reference (x w : Fin 4096 → ℝ) (a : Fin 16 → Fin 4096 → ℝ) (b : Fin 16 → ℝ) (bias two : ℝ) :
    acc (fun i => (x i : EReal)) (fun i => (w i : EReal)) (fun r i => (a r i : EReal)) (fun r => (b r : EReal)) (two : EReal) 8 le_rfl
        + (bias : EReal)
      = refEntry (fun i => (x i : EReal)) (fun i => (w i : EReal)) (fun r i => (a r i : EReal)) (fun r => (b r : EReal)) (bias : EReal) (two : EReal) := by
  have hacc : acc (fun i => (x i : EReal)) (fun i => (w i : EReal)) (fun r i => (a r i : EReal)) (fun r => (b r : EReal)) (two : EReal) 8 le_rfl
      = ((∑ i : Fin 4096, x i * (w i + two * ∑ r : Fin 16, b r * a r i) : ℝ) : EReal) := by
    unfold acc contrib
    rw [coe_sum, ← sum_chunks (fun i => ((x i * (w i + two * ∑ r : Fin 16, b r * a r i) : ℝ) : EReal))]
    refine Finset.sum_congr rfl fun kk _ => Finset.sum_congr rfl fun q _ => ?_
    rw [EReal.coe_mul, EReal.coe_add, EReal.coe_mul, coe_sum]
    simp only [EReal.coe_mul]
    rfl
  have href : refEntry (fun i => (x i : EReal)) (fun i => (w i : EReal)) (fun r i => (a r i : EReal)) (fun r => (b r : EReal)) (bias : EReal) (two : EReal)
      = (((∑ i : Fin 4096, x i * w i + bias) + (∑ r : Fin 16, (∑ i : Fin 4096, x i * a r i) * b r) * two : ℝ) : EReal) := by
    unfold refEntry
    rw [EReal.coe_add, EReal.coe_add, EReal.coe_mul, coe_sum, coe_sum]
    simp only [EReal.coe_mul, coe_sum]
  rw [hacc, href, ← EReal.coe_add, real_identity]

end Cert.LoraAlgebra

end
-- ==== Proof.KernelBlocks.lean ====
/-
  Where a grid point's blocks sit in the arrays.

  The grid is 8 × 4 × 8: point `t` is row-block `t / 32` of the 8192 activation rows, column-block `(t / 8) % 4` of the 4096
  output features, and chunk `t % 8` of the 4096 input features (the innermost axis: the eight steps of one output block
  are consecutive points). So at point `t` the activation block is rows `1024 · (t / 32) + p`, features
  `512 · (t % 8) + q`; the weight block is output features `1024 · ((t / 8) % 4) + n`, the same input features; the absmax
  block is those output features' 64 columns, of which the step reads columns `8 · (t % 8) + c`; and so on.
  The activations the kernel sees are the argument with its two leading axes merged, the bias the argument as one row.
-/
import proofs.«170527_j40604620816621_1_alg».proof.Proof.Gen.KernelIdeal.Frame
import proofs.«170527_j40604620816621_1_alg».proof.Proof.KernelPieces
import proofs.«170527_j40604620816621_1_alg».proof.Proof.LoraAlgebra
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Cert.LoraAlgebra (chunkCol)
open Cert.KernelIdeal.Pieces (scaleCols)

variable {F : FTy → Type} [FloatOps F]
variable (m : (ℓ : Loc nD τ sig) → Buf (Elt F) ℓ)

/-! ## Names, at their literal types -/

abbrev xblk (c : Dev nD) (t : Fin cfg0.N) : Vec F S1024x512 .f32 := iblk m c 0 t
abbrev qblk (c : Dev nD) (t : Fin cfg0.N) : Vec F S1024x512 .i32 := iblk m c 1 t
abbrev sblk (c : Dev nD) (t : Fin cfg0.N) : Vec F S1024x64 .f32 := iblk m c 2 t
abbrev ablk (c : Dev nD) (t : Fin cfg0.N) : Vec F S16x512 .f32 := iblk m c 3 t
abbrev bblk (c : Dev nD) (t : Fin cfg0.N) : Vec F S1024x16 .f32 := iblk m c 4 t
abbrev biasblk (c : Dev nD) (t : Fin cfg0.N) : Vec F S1x1024 .f32 := iblk m c 5 t

abbrev xarr (c : Dev nD) : Vec F S8192x4096 .f32 := V m c main_v0
abbrev qarr (c : Dev nD) : Vec F S4096x4096 .i32 := V m c main_arg1
abbrev sarr (c : Dev nD) : Vec F S4096x64 .f32 := V m c main_arg2
abbrev aarr (c : Dev nD) : Vec F S16x4096 .f32 := V m c main_arg3
abbrev barr (c : Dev nD) : Vec F S4096x16 .f32 := V m c main_arg4
abbrev biasarr (c : Dev nD) : Vec F S1x4096 .f32 := V m c main_v1

/-! ## A point's coordinates -/

/-- Activation row `p` of point `n`'s row-block. -/
def rowOf (n : ℕ) (hn : n < 256) (p : Fin 1024) : Fin 8192 := ⟨1024 * (n / 32) + p.val, by have := p.isLt; omega⟩
/-- Output feature `k` of point `n`'s column-block. -/
def colOf (n : ℕ) (k : Fin 1024) : Fin 4096 := ⟨1024 * (n / 8 % 4) + k.val, by have := k.isLt; omega⟩
/-- Point `n`'s chunk of input features. -/
def chunkOf (n : ℕ) : Fin 8 := ⟨n % 8, Nat.mod_lt _ (by norm_num)⟩
/-- Absmax column `c` of the eight a step at point `n` reads. -/
def absCol (n : ℕ) (c : Fin 8) : Fin 64 := ⟨8 * (n % 8) + c.val, by have := c.isLt; omega⟩

theorem lt256 (t : Fin cfg0.N) : t.val < 256 := lt_of_lt_of_eq t.isLt (show cfg0.N = 256 from N_0)

/-! ## The printed index maps, decided over the grid -/

theorem idx_in : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = 0
    ∧ win0_3.index t (0 : Fin 2) = 0 ∧ win0_3.index t (1 : Fin 2) = t.val % 8 :=
  (by decide +kernel : ∀ t : Fin grid0.N, _)

theorem idx_in' : ∀ t : Fin cfg0.N,
    win0_4.index t (0 : Fin 2) = t.val / 8 % 4 ∧ win0_4.index t (1 : Fin 2) = 0
    ∧ win0_5.index t (0 : Fin 2) = 0 ∧ win0_5.index t (1 : Fin 2) = t.val / 8 % 4
    ∧ k0_off1 (grid0.coords t) (0 : Fin 2) = 0 ∧ k0_off1 (grid0.coords t) (1 : Fin 2) = 8 * (t.val % 8) :=
  (by decide +kernel : ∀ t : Fin grid0.N, _)

theorem idx_out : ∀ t : Fin cfg0.N,
    win0_6.index t (0 : Fin 2) = t.val / 32 ∧ win0_6.index t (1 : Fin 2) = t.val / 8 % 4 :=
  (by decide +kernel : ∀ t : Fin grid0.N, _)

/-! ## Each block read at an index -/

theorem xblk_apply (c : Dev nD) (t : Fin cfg0.N) (p : Fin 1024) (q : Fin 512) :
    xblk m c t (ix2 p q) = xarr m c (ix2 (rowOf t.val (lt256 t) p) (chunkCol (chunkOf t.val) q)) := by
  obtain ⟨e0, e1, -⟩ := idx_in t
  show ((cfg0.win 0).blk t).view.read (Elt F) (V m c (Pipeline.arrRef spec0 0)) (ix2 p q) = _
  rw [View.read_apply]
  show V m c main_v0 _ = V m c main_v0 _
  congr 1
  funext a
  apply Fin.ext
  match a with
  | ⟨0, _⟩ => show win0_0.index t (0 : Fin 2) * 1024 + 1 * p.val = 1024 * (t.val / 32) + p.val; omega
  | ⟨1, _⟩ => show win0_0.index t (1 : Fin 2) * 512 + 1 * q.val = 512 * (t.val % 8) + q.val; omega

theorem qblk_apply (c : Dev nD) (t : Fin cfg0.N) (k : Fin 1024) (q : Fin 512) :
    qblk m c t (ix2 k q) = qarr m c (ix2 (colOf t.val k) (chunkCol (chunkOf t.val) q)) := by
  obtain ⟨-, -, e0, e1, -⟩ := idx_in t
  show ((cfg0.win 1).blk t).view.read (Elt F) (V m c (Pipeline.arrRef spec0 1)) (ix2 k q) = _
  rw [View.read_apply]
  show V m c main_arg1 _ = V m c main_arg1 _
  congr 1
  funext a
  apply Fin.ext
  match a with
  | ⟨0, _⟩ => show win0_1.index t (0 : Fin 2) * 1024 + 1 * k.val = 1024 * (t.val / 8 % 4) + k.val; omega
  | ⟨1, _⟩ => show win0_1.index t (1 : Fin 2) * 512 + 1 * q.val = 512 * (t.val % 8) + q.val; omega

theorem sblk_apply (c : Dev nD) (t : Fin cfg0.N) (k : Fin 1024) (s : Fin 64) :
    sblk m c t (ix2 k s) = sarr m c (ix2 (colOf t.val k) s) := by
  obtain ⟨-, -, -, -, e0, e1, -⟩ := idx_in t
  show ((cfg0.win 2).blk t).view.read (Elt F) (V m c (Pipeline.arrRef spec0 2)) (ix2 k s) = _
  rw [View.read_apply]
  show V m c main_arg2 _ = V m c main_arg2 _
  congr 1
  funext a
  apply Fin.ext
  match a with
  | ⟨0, _⟩ => show win0_2.index t (0 : Fin 2) * 1024 + 1 * k.val = 1024 * (t.val / 8 % 4) + k.val; omega
  | ⟨1, _⟩ => show win0_2.index t (1 : Fin 2) * 64 + 1 * s.val = s.val; omega

/-- The eight absmax columns the step at point `t` reads. -/
theorem scale_apply (c : Dev nD) (t : Fin cfg0.N) (k : Fin 1024) (s : Fin 8) :
    scaleCols (grid0.coords t) (sblk m c t) (ix2 k s) = sarr m c (ix2 (colOf t.val k) (absCol t.val s)) := by
  obtain ⟨-, -, -, -, e0, e1⟩ := idx_in' t
  have hidx : (Rect.unit (s := S1024x64) (k0_off1 (grid0.coords t)) S1024x8.size (k0_off1_inb (grid0.coords t))).idx (ix2 k s)
      = ix2 k (absCol t.val s) := by
    funext a
    apply Fin.ext
    match a with
    | ⟨0, _⟩ => show k0_off1 (grid0.coords t) (0 : Fin 2) + 1 * k.val = k.val; omega
    | ⟨1, _⟩ => show k0_off1 (grid0.coords t) (1 : Fin 2) + 1 * s.val = 8 * (t.val % 8) + s.val; omega
  show sblk m c t ((Rect.unit (s := S1024x64) (k0_off1 (grid0.coords t)) S1024x8.size (k0_off1_inb (grid0.coords t))).idx (ix2 k s)) = _
  rw [hidx, sblk_apply]

theorem ablk_apply (c : Dev nD) (t : Fin cfg0.N) (r : Fin 16) (q : Fin 512) :
    ablk m c t (ix2 r q) = aarr m c (ix2 r (chunkCol (chunkOf t.val) q)) := by
  obtain ⟨-, -, -, -, -, -, e0, e1⟩ := idx_in t
  show ((cfg0.win 3).blk t).view.read (Elt F) (V m c (Pipeline.arrRef spec0 3)) (ix2 r q) = _
  rw [View.read_apply]
  show V m c main_arg3 _ = V m c main_arg3 _
  congr 1
  funext a
  apply Fin.ext
  match a with
  | ⟨0, _⟩ => show win0_3.index t (0 : Fin 2) * 16 + 1 * r.val = r.val; omega
  | ⟨1, _⟩ => show win0_3.index t (1 : Fin 2) * 512 + 1 * q.val = 512 * (t.val % 8) + q.val; omega

theorem bblk_apply (c : Dev nD) (t : Fin cfg0.N) (k : Fin 1024) (r : Fin 16) :
    bblk m c t (ix2 k r) = barr m c (ix2 (colOf t.val k) r) := by
  obtain ⟨e0, e1, -⟩ := idx_in' t
  show ((cfg0.win 4).blk t).view.read (Elt F) (V m c (Pipeline.arrRef spec0 4)) (ix2 k r) = _
  rw [View.read_apply]
  show V m c main_arg4 _ = V m c main_arg4 _
  congr 1
  funext a
  apply Fin.ext
  match a with
  | ⟨0, _⟩ => show win0_4.index t (0 : Fin 2) * 1024 + 1 * k.val = 1024 * (t.val / 8 % 4) + k.val; omega
  | ⟨1, _⟩ => show win0_4.index t (1 : Fin 2) * 16 + 1 * r.val = r.val; omega

theorem biasblk_apply (c : Dev nD) (t : Fin cfg0.N) (k : Fin 1024) :
    biasblk m c t (ix2 (0 : Fin 1) k) = biasarr m c (ix2 (0 : Fin 1) (colOf t.val k)) := by
  obtain ⟨-, -, e0, e1, -⟩ := idx_in' t
  show ((cfg0.win 5).blk t).view.read (Elt F) (V m c (Pipeline.arrRef spec0 5)) (ix2 (0 : Fin 1) k) = _
  rw [View.read_apply]
  show V m c main_v1 _ = V m c main_v1 _
  congr 1
  funext a
  apply Fin.ext
  match a with
  | ⟨0, _⟩ => show win0_5.index t (0 : Fin 2) * 1 + 1 * 0 = 0; omega
  | ⟨1, _⟩ => show win0_5.index t (1 : Fin 2) * 1024 + 1 * k.val = 1024 * (t.val / 8 % 4) + k.val; omega

/-! ## The arrays as the region finds them -/

/-- The activations with the batch and sequence axes merged. -/
theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The bias as one row. -/
theorem biasarr_eq (c : Dev nD) :
    biasarr m c = shapeCast S1x4096 (m ((c : Thread nD τ).loc main_arg5)) shapeCasts_S4096_S1x4096 := by
  show StableHlo.after hostOps0 (fun b => m (c, b)) (Proc.devRef .tc main_v1) = _
  after_results
  rfl

theorem qarr_eq (c : Dev nD) : qarr m c = m ((c : Thread nD τ).loc main_arg1) := V_main_arg1 m c
theorem sarr_eq (c : Dev nD) : sarr m c = m ((c : Thread nD τ).loc main_arg2) := V_main_arg2 m c
theorem aarr_eq (c : Dev nD) : aarr m c = m ((c : Thread nD τ).loc main_arg3) := V_main_arg3 m c
theorem barr_eq (c : Dev nD) : barr m c = m ((c : Thread nD τ).loc main_arg4) := V_main_arg4 m c

end Cert.KernelIdeal.Blocks

end
-- ==== Proof.EntrySpec.lean ====
/-
  One entry of the result, as a function of the argument arrays: which row of activations, which row of dequantized
  weight, which low-rank factors and which bias entry the entry (M, O) of the 8192 × 4096 result depends on.

  The dequantized weight of output feature O at input feature i is the integer weight there, as a real, times the
  absmax of the block of 64 input features that i lies in: column `i / 64` of O's 64 absmax values.
-/
import proofs.«170527_j40604620816621_1_alg».proof.Proof.LoraAlgebra
import Idealize.ShloMosaic.PureOps.Ideal
import Idealize.ShloMosaic.Lib.ValueIdx

noncomputable section

namespace Cert.EntrySpec

open Idealize.ShloMosaic Idealize.ShloMosaic.ValueIdx Cert.LoraAlgebra

/-- The absmax block of input feature `i`. -/
def blockOf (i : Fin 4096) : Fin 64 := ⟨i.val / 64, by have := i.isLt; omega⟩

/-- Row M of the activations (batch and sequence merged). -/
def rowX (X : (⟨2, ![8192, 4096]⟩ : Shape).Idx → EReal) (M : Fin 8192) : Fin 4096 → EReal := fun i => X (ix2 M i)

/-- Row O of the dequantized weight. -/
def rowW (Q : (⟨2, ![4096, 4096]⟩ : Shape).Idx → BitVec 32) (S : (⟨2, ![4096, 64]⟩ : Shape).Idx → EReal) (O : Fin 4096) : Fin 4096 → EReal :=
  fun i => FloatOps.sitofp (F := Ideal) .f32 (Q (ix2 O i)) * S (ix2 O (blockOf i))

def matA (A : (⟨2, ![16, 4096]⟩ : Shape).Idx → EReal) : Fin 16 → Fin 4096 → EReal := fun r i => A (ix2 r i)

def rowB (B : (⟨2, ![4096, 16]⟩ : Shape).Idx → EReal) (O : Fin 4096) : Fin 16 → EReal := fun r => B (ix2 O r)

/-- The scaling constant both programs spell. -/
def two : EReal := Ideal.ofBits .f32 0x40000000#32

/-- The kernel's result array: at (M, O) the running sum after all eight chunks plus the bias row's entry O. -/
def kernelOut (X : (⟨2, ![8192, 4096]⟩ : Shape).Idx → EReal) (Q : (⟨2, ![4096, 4096]⟩ : Shape).Idx → BitVec 32)
    (S : (⟨2, ![4096, 64]⟩ : Shape).Idx → EReal) (A : (⟨2, ![16, 4096]⟩ : Shape).Idx → EReal) (B : (⟨2, ![4096, 16]⟩ : Shape).Idx → EReal)
    (b2 : (⟨2, ![1, 4096]⟩ : Shape).Idx → EReal) : (⟨2, ![8192, 4096]⟩ : Shape).Idx → EReal :=
  fun j => acc (rowX X (j 0)) (rowW Q S (j 1)) (matA A) (rowB B (j 1)) two 8 le_rfl + b2 (ix2 (0 : Fin 1) (j 1))

/-- The reference's result, on the same merged rows. -/
def refOut (X : (⟨2, ![8192, 4096]⟩ : Shape).Idx → EReal) (Q : (⟨2, ![4096, 4096]⟩ : Shape).Idx → BitVec 32)
    (S : (⟨2, ![4096, 64]⟩ : Shape).Idx → EReal) (A : (⟨2, ![16, 4096]⟩ : Shape).Idx → EReal) (B : (⟨2, ![4096, 16]⟩ : Shape).Idx → EReal)
    (b1 : (⟨1, ![4096]⟩ : Shape).Idx → EReal) : (⟨2, ![8192, 4096]⟩ : Shape).Idx → EReal :=
  fun j => refEntry (rowX X (j 0)) (rowW Q S (j 1)) (matA A) (rowB B (j 1)) (b1 (ix1 (j 1))) two

end Cert.EntrySpec

end
-- ==== Proof.Consts.lean ====
/-
  The float constants the programs and the precondition spell, as the extended reals their bit patterns denote: the
  zero the accumulator starts from, the scaling factor 2 = lora_alpha / r that both programs multiply the low-rank path
  by, and the `+∞` below which the precondition wants every magnitude.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `2.0` denotes the real `2`. -/
theorem ofBits_two : Ideal.ofBits .f32 0x40000000#32 = ((2 : ℝ) : EReal) := by
  simp [Ideal.ofBits, Ideal.ieee, -EReal.coe_mul]; norm_num

/-- The pattern the precondition compares magnitudes against denotes `+∞`. -/
theorem ofBits_inf : Ideal.ofBits .f32 0x7F800000#32 = ⊤ := by
  simp [Ideal.ofBits, Ideal.ieee]

end Cert.Consts

end
-- ==== Proof.KernelValue.lean ====
/-
  What the kernel's run leaves in the result, at the ideal values.

  The scratch carries the running sum along the eight consecutive points of one output block: after the step at point
  `n`, its entry (p, k) is the sum of the contributions of chunks `0 … n % 8` to the result entry (row `p` of the point's
  row-block, feature `k` of its column-block) — by induction on the point, the first step of each block starting from
  the zero it has just stored. At the eighth step the block written back is that sum over all eight chunks plus the
  bias entry, which is block `(n / 32, (n / 8) % 4)` of ONE function of the arrays; the 8 × 4 blocks written back tile the
  8192 × 4096 array, so the array ends holding that function, and the program's result is it with the rows split back
  into batch and sequence.
-/
import proofs.«170527_j40604620816621_1_alg».proof.Proof.Gen.KernelIdeal.Frame
import proofs.«170527_j40604620816621_1_alg».proof.Proof.KernelPieces
import proofs.«170527_j40604620816621_1_alg».proof.Proof.KernelPayload
import proofs.«170527_j40604620816621_1_alg».proof.Proof.KernelBlocks
import proofs.«170527_j40604620816621_1_alg».proof.Proof.EntrySpec
import proofs.«170527_j40604620816621_1_alg».proof.Proof.Consts
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.Pipeline (Dat)
open Idealize.ShloMosaic.ValueIdx
open Cert.LoraAlgebra Cert.EntrySpec
open Cert.KernelIdeal.Pieces Cert.KernelIdeal.Payload Cert.KernelIdeal.Blocks

variable (m : (ℓ : Loc nD τ sig) → Buf (Elt Ideal) ℓ) (ρ : Dev nD → PrngReg)

/-- The running sum of result entry (M, O) after `K` chunks, of the arrays as the region finds them. -/
abbrev accAt (c : Dev nD) (M : Fin 8192) (O : Fin 4096) (K : ℕ) (hK : K ≤ 8) : EReal :=
  acc (rowX (xarr m c) M) (rowW (qarr m c) (sarr m c) O) (matA (aarr m c)) (rowB (barr m c) O) two K hK

/-- The kernel's whole result array. -/
abbrev result (c : Dev nD) : S8192x4096.Idx → EReal :=
  kernelOut (xarr m c) (qarr m c) (sarr m c) (aarr m c) (barr m c) (biasarr m c)

/-- One step at point `t`, at entry (p, k) of the block: what was there plus the contribution of `t`'s chunk to the
    result entry the block entry belongs to. -/
theorem step_eq (c : Dev nD) (t : Fin cfg0.N) (p k : Fin 1024) (a : Vec Ideal S1024x1024 .f32) :
    k0_pay2 (F := Ideal) (scaleCols (grid0.coords t) (sblk m c t)) (qblk m c t) (ablk m c t) (bblk m c t) (xblk m c t) a (ix2 p k)
      = a (ix2 p k) + contrib (rowX (xarr m c) (rowOf t.val (lt256 t) p)) (rowW (qarr m c) (sarr m c) (colOf t.val k))
          (matA (aarr m c)) (rowB (barr m c) (colOf t.val k)) two (chunkOf t.val) := by
  rw [step_apply]
  refine congrArg (a (ix2 p k) + ·) ?_
  unfold contrib
  refine Finset.sum_congr rfl fun q _ => ?_
  rw [xblk_apply, qblk_apply, scale_apply]
  have hb : absCol t.val (scaleCol q) = blockOf (chunkCol (chunkOf t.val) q) :=
    Fin.ext (by show 8 * (t.val % 8) + q.val / 64 = (512 * (t.val % 8) + q.val) / 64; omega)
  rw [hb]
  have hs : ∑ r : Fin 16, bblk m c t (ix2 k r) * ablk m c t (ix2 r q)
      = ∑ r : Fin 16, rowB (barr m c) (colOf t.val k) r * matA (aarr m c) r (chunkCol (chunkOf t.val) q) :=
    Finset.sum_congr rfl fun r _ => by rw [bblk_apply, ablk_apply]; rfl
  rw [hs]
  rfl

/-- THE RUNNING SUM. After the step at point `n` the scratch's entry (p, k) is the sum of chunks `0 … n % 8`. -/
theorem scratch_eq (c : Dev nD) (n : ℕ) : ∀ (h : n < cfg0.N) (p k : Fin 1024),
    (outsAt0 m c n h).2 (ix2 p k)
      = accAt m c (rowOf n (lt256 ⟨n, h⟩) p) (colOf n k) (n % 8 + 1) (by omega) := by
  induction n with
  | zero =>
    intro h p k
    rw [outsAt0_A m c ⟨0, h⟩ rfl (fun e => by have e' : (0 : ℕ) % 8 = 7 := e; omega)]
    dsimp only
    refine (congrFun (scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _)
      ((hcond0_0 ⟨0, h⟩).mpr rfl) (fun hh => by have e' : (0 : ℕ) % 8 = 7 := (hcond0_1 ⟨0, h⟩).mp hh; omega) (xblk m c ⟨0, h⟩) (qblk m c ⟨0, h⟩) (sblk m c ⟨0, h⟩) (ablk m c ⟨0, h⟩) (bblk m c ⟨0, h⟩) (biasblk m c ⟨0, h⟩)) (ix2 p k)).trans ?_
    rw [step_eq, reset_apply, Cert.Consts.ofBits_zero,
      ← acc_zero (rowX (xarr m c) (rowOf 0 (lt256 ⟨0, h⟩) p)) (rowW (qarr m c) (sarr m c) (colOf 0 k)) (matA (aarr m c)) (rowB (barr m c) (colOf 0 k)) two (Nat.zero_le 8)]
    exact acc_add_contrib _ _ _ _ _ 0 _ _ _ _ rfl rfl
  | succ n ih =>
    intro h p k
    have hN : n + 1 < 256 := lt256 ⟨n + 1, h⟩
    by_cases h0 : (n + 1) % 8 = 0
    · have h1 : ¬(n + 1) % 8 = 7 := by omega
      rw [outsAt0_A m c ⟨n + 1, h⟩ h0 h1]
      dsimp only
      refine (congrFun (scratch_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _)
        ((hcond0_0 ⟨n + 1, h⟩).mpr h0) (fun hh => h1 ((hcond0_1 ⟨n + 1, h⟩).mp hh)) (xblk m c ⟨n + 1, h⟩) (qblk m c ⟨n + 1, h⟩) (sblk m c ⟨n + 1, h⟩) (ablk m c ⟨n + 1, h⟩) (bblk m c ⟨n + 1, h⟩) (biasblk m c ⟨n + 1, h⟩)) (ix2 p k)).trans ?_
      rw [step_eq, reset_apply, Cert.Consts.ofBits_zero,
        ← acc_zero (rowX (xarr m c) (rowOf (n + 1) (lt256 ⟨n + 1, h⟩) p)) (rowW (qarr m c) (sarr m c) (colOf (n + 1) k)) (matA (aarr m c)) (rowB (barr m c) (colOf (n + 1) k)) two (Nat.zero_le 8)]
      exact acc_add_contrib _ _ _ _ _ 0 _ _ _ _ (by show (n + 1) % 8 = 0; exact h0) (by omega)
    · have hrow : rowOf (n + 1) (lt256 ⟨n + 1, h⟩) p = rowOf n (lt256 ⟨n, Nat.lt_of_succ_lt h⟩) p :=
        Fin.ext (by show 1024 * ((n + 1) / 32) + p.val = 1024 * (n / 32) + p.val; omega)
      have hcol : colOf (n + 1) k = colOf n k :=
        Fin.ext (by show 1024 * ((n + 1) / 8 % 4) + k.val = 1024 * (n / 8 % 4) + k.val; omega)
      by_cases h1 : (n + 1) % 8 = 7
      · rw [outsAt0_C m c ⟨n + 1, h⟩ h0 h1]
        dsimp only
        refine (congrFun (scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _)
          (fun hh => h0 ((hcond0_0 ⟨n + 1, h⟩).mp hh)) ((hcond0_1 ⟨n + 1, h⟩).mpr h1) (xblk m c ⟨n + 1, h⟩) (qblk m c ⟨n + 1, h⟩) (sblk m c ⟨n + 1, h⟩) (ablk m c ⟨n + 1, h⟩) (bblk m c ⟨n + 1, h⟩) (biasblk m c ⟨n + 1, h⟩)
          ((outsAt0 m c ((⟨n + 1, h⟩ : Fin cfg0.N).val - 1) (Nat.lt_of_le_of_lt (Nat.sub_le _ _) (⟨n + 1, h⟩ : Fin cfg0.N).isLt)).2)) (ix2 p k)).trans ?_
        rw [step_eq]
        show (outsAt0 m c n _).2 (ix2 p k) + _ = _
        rw [ih, hrow, hcol]
        exact acc_add_contrib _ _ _ _ _ (n % 8 + 1) _ _ _ _ (by show (n + 1) % 8 = n % 8 + 1; omega) (by omega)
      · rw [outsAt0_B m c ⟨n + 1, h⟩ h0 h1]
        dsimp only
        refine (congrFun (scratch_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _)
          (fun hh => h0 ((hcond0_0 ⟨n + 1, h⟩).mp hh)) (fun hh => h1 ((hcond0_1 ⟨n + 1, h⟩).mp hh)) (xblk m c ⟨n + 1, h⟩) (qblk m c ⟨n + 1, h⟩) (sblk m c ⟨n + 1, h⟩) (ablk m c ⟨n + 1, h⟩) (bblk m c ⟨n + 1, h⟩) (biasblk m c ⟨n + 1, h⟩)
          ((outsAt0 m c ((⟨n + 1, h⟩ : Fin cfg0.N).val - 1) (Nat.lt_of_le_of_lt (Nat.sub_le _ _) (⟨n + 1, h⟩ : Fin cfg0.N).isLt)).2)) (ix2 p k)).trans ?_
        rw [step_eq]
        show (outsAt0 m c n _).2 (ix2 p k) + _ = _
        rw [ih, hrow, hcol]
        exact acc_add_contrib _ _ _ _ _ (n % 8 + 1) _ _ _ _ (by show (n + 1) % 8 = n % 8 + 1; omega) (by omega)

/-- WHAT A POINT WRITES BACK (only the eighth step of a block does): its block of the result function. -/
theorem flushed_eq (c : Dev nD) (t : Fin cfg0.N) (hf : (cfg0.win 6).flush t = true) :
    (dats m 0 c).flushed 6 t = ((cfg0.win 6).blk t).view.read (Elt Ideal) (result m c) := by
  have h1 : t.val % 8 = 7 := (flush0_6 t).mp hf
  have h0 : ¬t.val % 8 = 0 := by omega
  have hN : t.val < 256 := lt256 t
  obtain ⟨e0, e1⟩ := idx_out t
  show (cfg0.win 6).cut (grid0.coords t) ((dats m 0 c).after 6 t) = _
  rw [after0_6, outsAt0_C m c t h0 h1]
  dsimp only
  funext (j : S1024x1024.Idx)
  obtain ⟨p, k, rfl⟩ : ∃ (p k : Fin 1024), j = ix2 p k := ⟨j 0, j 1, eq_ix2 j⟩
  rw [View.read_apply]
  have hemb : ((cfg0.win 6).blk t).view.emb (ix2 p k) = ix2 (rowOf t.val hN p) (colOf t.val k) := by
    funext a
    apply Fin.ext
    match a with
    | ⟨0, _⟩ => show win0_6.index t (0 : Fin 2) * 1024 + 1 * p.val = 1024 * (t.val / 32) + p.val; omega
    | ⟨1, _⟩ => show win0_6.index t (1 : Fin 2) * 1024 + 1 * k.val = 1024 * (t.val / 8 % 4) + k.val; omega
  rw [hemb]
  refine (congrFun (out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (fun hh => h0 ((hcond0_0 t).mp hh)) ((hcond0_1 t).mpr h1) (xblk m c t) (qblk m c t) (sblk m c t) (ablk m c t) (bblk m c t) (biasblk m c t)
    ((outsAt0 m c (t.val - 1) (Nat.lt_of_le_of_lt (Nat.sub_le _ _) t.isLt)).2)) (ix2 p k)).trans ?_
  rw [finish_apply, step_eq, scratch_eq m c (t.val - 1) _ p k, biasblk_apply]
  have hrow : rowOf (t.val - 1) (lt256 ⟨t.val - 1, Nat.lt_of_le_of_lt (Nat.sub_le _ _) t.isLt⟩) p = rowOf t.val hN p :=
    Fin.ext (by show 1024 * ((t.val - 1) / 32) + p.val = 1024 * (t.val / 32) + p.val; omega)
  have hcol : colOf (t.val - 1) k = colOf t.val k :=
    Fin.ext (by show 1024 * ((t.val - 1) / 8 % 4) + k.val = 1024 * (t.val / 8 % 4) + k.val; omega)
  rw [hrow, hcol]
  show _ = acc _ _ _ _ two 8 le_rfl + biasarr m c (ix2 (0 : Fin 1) (colOf t.val k))
  refine congrArg (· + biasarr m c (ix2 (0 : Fin 1) (colOf t.val k))) ?_
  exact acc_add_contrib _ _ _ _ _ ((t.val - 1) % 8 + 1) _ _ _ _ (by show t.val % 8 = (t.val - 1) % 8 + 1; omega) (by omega)

/-- An index of the result array is in point `t`'s block iff each coordinate is in the block's range on its axis. -/
theorem mem_blk (t : Fin cfg0.N) (i : S8192x4096.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v2).slice (win0_6.rect t)).set ↔ _
  rw [View.set_slice_whole, Rect.mem_set_unit]
  exact Iff.rfl

/-- Every entry of the result array lies in the block some eighth step writes back. -/
theorem cover (i : S8192x4096.Idx) :
    ∃ t : Fin cfg0.N, (cfg0.win 6).flush t = true ∧ i ∈ ((cfg0.win 6).blk t).view.set := by
  have hi0 : (i 0).val < 8192 := (i 0).isLt
  have hi1 : (i 1).val < 4096 := (i 1).isLt
  have hN : cfg0.N = 256 := N_0
  let t : Fin cfg0.N := ⟨((i 0).val / 1024 * 4 + (i 1).val / 1024) * 8 + 7, by rw [hN]; omega⟩
  have htv : t.val = ((i 0).val / 1024 * 4 + (i 1).val / 1024) * 8 + 7 := rfl
  obtain ⟨e0, e1⟩ := idx_out t
  refine ⟨t, (flush0_6 t).mpr (by omega), ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- THE ARRAY after the run. -/
theorem final (c : Dev nD) : (dats m 0 c).arrAt 6 cfg0.N = result m c :=
  (dats m 0 c).arrAt_eq_of_cover 6 (result m c) (fun t hf => flushed_eq m c t hf) cover

/-- The program's result: the array with its rows split back into batch and sequence. -/
theorem tail_eq (c : Dev nD) :
    Pipeline.afterTail₀ cfgs (dats m) 0 (V0 m) [hostOps1] c main_v3
      = shapeCast S4x2048x4096 (result m c) shapeCasts_S8192x4096_S4x2048x4096 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = result m c := (Pipeline.withArrays_arr spec0 launch0.win.arr_inj c _ _ 6).trans (final m c)
  rw [e]
  rfl

/-- THE RUN, READ: the program's result at the result function with its rows split, every argument unchanged. -/
theorem run : θ_run defs (onTc (τ := τ) (main (F := Ideal))) ⟨m, fun _ => 0, ρ⟩ fun r => ∀ c : Dev nD,
      r.2.mem ((c.tc : Thread nD τ).loc main_v3) = shapeCast S4x2048x4096 (result m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.RunValue

end
-- ==== Proof.RefValue.lean ====
/-
  The reference's result at an index, at the ideal values.

  At (b, s, o) the reference computes the base product of activation row (b, s) with row o of the dequantized weight —
  the integer weight as a real times the absmax of its block of 64 input features (`jnp.repeat` prints as a broadcast to
  4096 × 64 × 64 merged to 4096 × 4096: feature i reads column i / 64) —, adds bias o, and adds 2 times the low-rank path:
  row (b, s) against the sixteen rows of lora_A, then against row o of lora_B.
-/
import proofs.«170527_j40604620816621_1_alg».proof.Proof.Gen.ReferenceIdeal.Run
import proofs.«170527_j40604620816621_1_alg».proof.Proof.Gen.ReferenceIdeal.Read
import proofs.«170527_j40604620816621_1_alg».proof.Proof.EntrySpec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.LoraAlgebra Cert.EntrySpec

/-- The reference's entry (b, s, o): the entry spec's reference form over activation row (b, s). -/
theorem result_apply (x0 : FVec Ideal S4x2048x4096 .f32) (x1 : IVec S4096x4096 32) (x2 : FVec Ideal S4096x64 .f32)
    (x3 : FVec Ideal S16x4096 .f32) (x4 : FVec Ideal S4096x16 .f32) (x5 : FVec Ideal S4096 .f32)
    (b : Fin 4) (s : Fin 2048) (o : Fin 4096) :
    val_main_v12 (F := Ideal) x0 x1 x2 x3 x4 x5 (ix3 b s o)
      = refEntry (fun i => x0 (ix3 b s i)) (rowW x1 x2 o) (matA x3) (rowB x4 o) (x5 (ix1 o)) two := by
  have e4l : ∀ k : Fin 4096, lidx_main_v4 (ix3 b s o) k = ix3 b s k := fun k => funext fun a => by
    match a with
    | ⟨0, _⟩ => rfl
    | ⟨1, _⟩ => rfl
    | ⟨2, _⟩ => rfl
  have e4r : ∀ k : Fin 4096, ridx_main_v4 (ix3 b s o) k = ix2 o k := fun k => funext fun a => by
    match a with
    | ⟨0, _⟩ => rfl
    | ⟨1, _⟩ => rfl
  have e01 : ∀ k : Fin 4096, idx_main_v0 (idx_main_v1 (ix2 o k)) = ix2 o (blockOf k) := fun k => funext fun a => Fin.ext (by
    have ho := o.isLt
    have hk := k.isLt
    match a with
    | ⟨0, _⟩ => show (o.val * 4096 + k.val) / 4096 = o.val; omega
    | ⟨1, _⟩ => show (o.val * 4096 + k.val) / 64 % 64 = k.val / 64; omega)
  have e56 : idx_main_v5 (idx_main_v6 (ix3 b s o)) = ix1 o := funext fun a => by
    match a with
    | ⟨0, _⟩ => rfl
  have e9l : ∀ r : Fin 16, lidx_main_v9 (ix3 b s o) r = ix3 b s r := fun r => funext fun a => by
    match a with
    | ⟨0, _⟩ => rfl
    | ⟨1, _⟩ => rfl
    | ⟨2, _⟩ => rfl
  have e9r : ∀ r : Fin 16, ridx_main_v9 (ix3 b s o) r = ix2 o r := fun r => funext fun a => by
    match a with
    | ⟨0, _⟩ => rfl
    | ⟨1, _⟩ => rfl
  have e8l : ∀ (r : Fin 16) (k : Fin 4096), lidx_main_v8 (ix3 b s r) k = ix3 b s k := fun r k => funext fun a => by
    match a with
    | ⟨0, _⟩ => rfl
    | ⟨1, _⟩ => rfl
    | ⟨2, _⟩ => rfl
  have e8r : ∀ (r : Fin 16) (k : Fin 4096), ridx_main_v8 (ix3 b s r) k = ix2 r k := fun r k => funext fun a => by
    match a with
    | ⟨0, _⟩ => rfl
    | ⟨1, _⟩ => rfl
  rw [val_main_v12_apply, val_main_v7_apply, val_main_v11_apply, val_main_v4_apply, val_main_v6_apply, val_main_v5_apply,
    val_main_v9_apply, val_main_v10_apply, val_main_cst_apply]
  simp only [val_main_v3_apply, val_main_v2_apply, val_main_v1_apply, val_main_v0_apply, val_main_v8_apply,
    e4l, e4r, e01, e56, e9l, e9r, e8l, e8r, Ideal.addf_def, Ideal.mulf_def, Ideal.ofBits_def]
  rfl

end Cert.ReferenceIdeal.RefValue

end
-- ==== Proof.FiniteInputs.lean ====
/-
  What the precondition says: every entry of every float argument is a real number. The predicate compares each
  magnitude `max x (-x)` with `+∞` and takes the conjunction over all entries of all five float arguments; an extended
  real whose magnitude is below `+∞` is neither infinity.
-/
import proofs.«170527_j40604620816621_1_alg».proof.Pre_finite_inputs
import proofs.«170527_j40604620816621_1_alg».proof.Proof.Consts
import Idealize.ShloMosaic.PureOps.Ideal
import Idealize.ShloMosaic.Lib.ValueIdx
import Idealize.ShloMosaic.Lib.ReduceAll

noncomputable section

namespace Cert.FiniteInputs

open Idealize.ShloMosaic Idealize.ShloMosaic.ValueIdx Cert.Pre_finite_inputs

variable [Cert.Pre_finite_inputs.Facts]

instance : Subsingleton S_.Idx := ⟨fun a b => funext fun d => d.elim0⟩

/-- A magnitude below `+∞` belongs to a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Cert.Consts.ofBits_inf] at h
  have h' : max x (-x) < ⊤ := by
    by_contra hn
    have : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [this] at h; exact absurd h (by decide)
  induction x using EReal.rec with
  | bot => simp at h'
  | top => simp at h'
  | coe r => exact ⟨r, rfl⟩

theorem finite_of_pre (a0 : FVec Ideal S4x2048x4096 .f32) (a1 : IVec S4096x4096 32) (a2 : FVec Ideal S4096x64 .f32)
    (a3 : FVec Ideal S16x4096 .f32) (a4 : FVec Ideal S4096x16 .f32) (a5 : FVec Ideal S4096 .f32)
    (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ix0
  dsimp only [fn, fn_part1] at h0
  obtain ⟨h0123, h5⟩ := IntOp.andi_eq_one.1 h0
  obtain ⟨h012, h4⟩ := IntOp.andi_eq_one.1 h0123
  obtain ⟨h01, h3⟩ := IntOp.andi_eq_one.1 h012
  obtain ⟨h00, h2⟩ := IntOp.andi_eq_one.1 h01
  exact ⟨fun i => real_of_abs_lt _ (Host.reduce_andi_all _ _ _ _ _ h00 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i),
    fun i => real_of_abs_lt _ (Host.reduce_andi_all _ _ _ _ _ h5 i)⟩

end Cert.FiniteInputs

end
-- ==== Proof.Bridge.lean ====
/-
  The two programs' results are one function of the arguments, when every float entry is a real.

  Entry (b, s, o) of the reference's result and entry (2048 · b + s, o) of the kernel's result array are the two forms of
  the entry spec over the same rows: activation row (b, s) is row 2048 · b + s of the activations with batch and sequence
  merged, and the bias entry is read from the bias as one row. With every entry a real — the integer weights always are —
  the forms agree by the arithmetic of the spec.
-/
import proofs.«170527_j40604620816621_1_alg».proof.Proof.EntrySpec
import proofs.«170527_j40604620816621_1_alg».proof.Proof.Consts
import Idealize.ShloMosaic.Lib.ValueIdx

noncomputable section

namespace Cert.Bridge

open Idealize.ShloMosaic Idealize.ShloMosaic.ValueIdx Cert.LoraAlgebra Cert.EntrySpec

/-- Row `2048 · b + s` of the merged activations. -/
def mergedRow (b : Fin 4) (s : Fin 2048) : Fin 8192 := ⟨2048 * b.val + s.val, by have := b.isLt; have := s.isLt; omega⟩

theorem entry_eq (X : (⟨3, ![4, 2048, 4096]⟩ : Shape).Idx → EReal) (Q : (⟨2, ![4096, 4096]⟩ : Shape).Idx → BitVec 32)
    (S : (⟨2, ![4096, 64]⟩ : Shape).Idx → EReal) (A : (⟨2, ![16, 4096]⟩ : Shape).Idx → EReal) (B : (⟨2, ![4096, 16]⟩ : Shape).Idx → EReal)
    (bias : (⟨1, ![4096]⟩ : Shape).Idx → EReal)
    (hX : ∀ i, ∃ r : ℝ, X i = (r : EReal)) (hS : ∀ i, ∃ r : ℝ, S i = (r : EReal)) (hA : ∀ i, ∃ r : ℝ, A i = (r : EReal))
    (hB : ∀ i, ∃ r : ℝ, B i = (r : EReal)) (hbias : ∀ i, ∃ r : ℝ, bias i = (r : EReal))
    (X2 : (⟨2, ![8192, 4096]⟩ : Shape).Idx → EReal)
    (hX2 : ∀ (b : Fin 4) (s : Fin 2048) (i : Fin 4096), X2 (ix2 (mergedRow b s) i) = X (ix3 b s i))
    (b2 : (⟨2, ![1, 4096]⟩ : Shape).Idx → EReal) (hb2 : ∀ o : Fin 4096, b2 (ix2 (0 : Fin 1) o) = bias (ix1 o))
    (b : Fin 4) (s : Fin 2048) (o : Fin 4096) :
    kernelOut X2 Q S A B b2 (ix2 (mergedRow b s) o)
      = refEntry (fun i => X (ix3 b s i)) (rowW Q S o) (matA A) (rowB B o) (bias (ix1 o)) two := by
  choose xr hxr using hX
  choose sr hsr using hS
  choose ar har using hA
  choose br hbr using hB
  choose cr hcr using hbias
  have eX : rowX X2 (mergedRow b s) = fun i => ((xr (ix3 b s i) : ℝ) : EReal) :=
    funext fun i => (hX2 b s i).trans (hxr _)
  have eX' : (fun i => X (ix3 b s i)) = fun i : Fin 4096 => ((xr (ix3 b s i) : ℝ) : EReal) := funext fun i => hxr _
  have eW : rowW Q S o = fun i => ((((Q (ix2 o i)).toInt : ℝ) * sr (ix2 o (blockOf i)) : ℝ) : EReal) :=
    funext fun i => by
      show (((Q (ix2 o i)).toInt : ℝ) : EReal) * S (ix2 o (blockOf i)) = _
      rw [hsr, ← EReal.coe_mul]
  have eA : matA A = fun r i => ((ar (ix2 r i) : ℝ) : EReal) := funext fun r => funext fun i => har _
  have eB : rowB B o = fun r => ((br (ix2 o r) : ℝ) : EReal) := funext fun r => hbr _
  have e2 : two = ((2 : ℝ) : EReal) := Cert.Consts.ofBits_two
  show acc (rowX X2 (mergedRow b s)) (rowW Q S o) (matA A) (rowB B o) two 8 le_rfl + b2 (ix2 (0 : Fin 1) o) = _
  rw [eX, eX', eW, eA, eB, e2, hb2, hcr]
  exact kernel_eq_reference _ _ _ _ _ _

end Cert.Bridge

end
-- ==== Proof.lean ====
/-
  A quantized linear layer with a low-rank correction: `out = x · (dequant(W) + 2 · B · A)ᵀ + bias`.

  The kernel folds the low-rank factors into an effective weight tile by tile, and sums the product over the 4096 input
  features in eight chunks of 512, carrying the running sum in a scratch buffer along the eight consecutive grid points of
  each 1024 × 1024 output block; the bias is added at the eighth. The reference dequantizes the whole weight, forms the
  base product, adds the bias, and adds twice the low-rank path `(x · Aᵀ) · Bᵀ`.

  At the ideal values the two results are one function of the arguments when every float entry is a real, which the
  precondition says: the effective-weight product splits by distributivity, the sums over features and ranks exchange,
  and eight chunks of 512 features are all 4096 (Proof/LoraAlgebra.lean). The kernel's result array is read off its
  frame run (Proof/KernelValue.lean: the running sum by induction on the grid point), the reference's off its run
  one operation at a time (Proof/RefValue.lean); Proof/Bridge.lean joins them entry by entry.

  The idealization rewrote nothing (a change of float format is the identity at the ideal values), so the
  preservation claim is trivial; the two kernels' frames are the generated frame runs, the reference's its run.
-/
import proofs.«170527_j40604620816621_1_alg».proof.Defs
import proofs.«170527_j40604620816621_1_alg».proof.Proof.Gen.Kernel
import proofs.«170527_j40604620816621_1_alg».proof.Proof.Gen.Kernel.Skeleton
import proofs.«170527_j40604620816621_1_alg».proof.Proof.Gen.Kernel.Launch
import proofs.«170527_j40604620816621_1_alg».proof.Proof.Gen.Kernel.Points
import proofs.«170527_j40604620816621_1_alg».proof.Proof.Gen.Kernel.Frame
import proofs.«170527_j40604620816621_1_alg».proof.Proof.Gen.KernelIdeal
import proofs.«170527_j40604620816621_1_alg».proof.Proof.Gen.KernelIdeal.Skeleton
import proofs.«170527_j40604620816621_1_alg».proof.Proof.Gen.KernelIdeal.Launch
import proofs.«170527_j40604620816621_1_alg».proof.Proof.Gen.KernelIdeal.Points
import proofs.«170527_j40604620816621_1_alg».proof.Proof.Gen.KernelIdeal.Frame
import proofs.«170527_j40604620816621_1_alg».proof.Proof.Gen.ReferenceIdeal
import proofs.«170527_j40604620816621_1_alg».proof.Proof.Gen.ReferenceIdeal.Run
import proofs.«170527_j40604620816621_1_alg».proof.Proof.Gen.ReferenceIdeal.Read
import proofs.«170527_j40604620816621_1_alg».proof.Proof.Gen.Pre_finite_inputs
import proofs.«170527_j40604620816621_1_alg».proof.Proof.KernelValue
import proofs.«170527_j40604620816621_1_alg».proof.Proof.RefValue
import proofs.«170527_j40604620816621_1_alg».proof.Proof.FiniteInputs
import proofs.«170527_j40604620816621_1_alg».proof.Proof.Bridge
import Idealize.ShloMosaic.Lib.Pipeline.Value
import Idealize.ShloMosaic.Lib.ValueIdx
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx
open Cert.KernelIdeal.Blocks Cert.EntrySpec Cert.Bridge

/-- The reference's result term, of the kernel's arguments, is the kernel's result: entry (b, s, o) of the one is entry
    (2048 · b + s, o) of the kernel's result array, whose rows the program splits back into batch and sequence. -/
theorem results_agree
    (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1) :
    Cert.ReferenceIdeal.Read.val_main_v12 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = shapeCast Cert.KernelIdeal.S4x2048x4096 (Cert.KernelIdeal.RunValue.result m c) Cert.KernelIdeal.Facts₀.shapeCasts_S8192x4096_S4x2048x4096 := by
  obtain ⟨h0, h2, h3, h4, h5⟩ := Cert.FiniteInputs.finite_of_pre _ _ _ _ _ _ hpre
  funext j
  obtain ⟨b, s, o, rfl⟩ : ∃ (b : Fin 4) (s : Fin 2048) (o : Fin 4096), j = ix3 b s o := ⟨j 0, j 1, j 2, eq_ix3 j⟩
  rw [Cert.ReferenceIdeal.RefValue.result_apply]
  have hb := b.isLt
  have hs := s.isLt
  refine Eq.symm ((shapeCast_apply (Cert.KernelIdeal.RunValue.result m c) Cert.KernelIdeal.Facts₀.shapeCasts_S8192x4096_S4x2048x4096 (ix3 b s o)
    (ix2 (mergedRow b s) o) ?_).trans ?_)
  · rewrite [Shape.rowMajor_val_two, Shape.rowMajor_val_three]
    show (2048 * b.val + s.val) * 4096 + o.val = (b.val * 2048 + s.val) * 4096 + o.val
    omega
  show kernelOut (xarr m c) (qarr m c) (sarr m c) (aarr m c) (barr m c) (biasarr m c) (ix2 (mergedRow b s) o) = _
  rw [qarr_eq m c, sarr_eq m c, aarr_eq m c, barr_eq m c]
  refine entry_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) h0 h2 h3 h4 h5 (xarr m c) ?_ (biasarr m c) ?_ b s o
  · intro b' s' i
    have hb' := b'.isLt
    have hs' := s'.isLt
    rw [xarr_eq m c]
    refine shapeCast_apply _ Cert.KernelIdeal.Facts₀.shapeCasts_S4x2048x4096_S8192x4096 (ix2 (mergedRow b' s') i) (ix3 b' s' i) ?_
    rewrite [Shape.rowMajor_val_two, Shape.rowMajor_val_three]
    show (b'.val * 2048 + s'.val) * 4096 + i.val = (2048 * b'.val + s'.val) * 4096 + i.val
    omega
  · intro o'
    rw [biasarr_eq m c]
    exact shapeCast_a_1a_apply _ Cert.KernelIdeal.Facts₀.shapeCasts_S4096_S1x4096 (0 : Fin 1) o'

theorem frame_k : Cert.frame_Kernel :=
  fun m ρ _ => Cert.Kernel.Gen.frame m ρ

theorem frame_ki : Cert.frame_KernelIdeal :=
  fun m ρ _ => Cert.KernelIdeal.Gen.frame m ρ

theorem frame_ri : Cert.frame_ReferenceIdeal :=
  fun m ρ _ => (θ_run Cert.ReferenceIdeal.defs _ _).mono (fun _ h c => (h c).2) (Cert.ReferenceIdeal.Value.run (F := Ideal) m ρ)

/-- Both programs run, and end with equal results: the kernel's run leaves the result function with its rows split
    (Proof/KernelValue.lean), the reference's run its result term of arguments that agree, which is the same array. -/
theorem algebraic : Cert.algebraic_KernelIdeal_ReferenceIdeal := by
  intro m ρ m' ρ' hpre hagree
  refine ⟨fun c => shapeCast Cert.KernelIdeal.S4x2048x4096 (Cert.KernelIdeal.RunValue.result m c) Cert.KernelIdeal.Facts₀.shapeCasts_S8192x4096_S4x2048x4096,
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2.1, (hagree c).2.2.1, (hagree c).2.2.2.1, (hagree c).2.2.2.2.1,
    (hagree c).2.2.2.2.2]
  exact results_agree m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
